-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v32)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v32) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S128x256 : Shape := ⟨2, ![128, 256]⟩
abbrev S256 : Shape := ⟨1, ![256]⟩
abbrev S256x128 : Shape := ⟨2, ![256, 128]⟩
abbrev S128 : Shape := ⟨1, ![128]⟩
abbrev S800000 : Shape := ⟨1, ![800000]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S128 .f32) (main_v13 : IVec S_ 1) (main_v16 : IVec S256x128 1) : IVec S_ 1 :=
  let main_c_5 : IVec S_ 1 := constantI S_ 1 1#1
  let main_v17 : IVec S_ 1 := (fun x v => Host.reduce IntOp.andi x v reducesTo_S256x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S50000x128 .f32) (main_arg1 : FVec F S128x256 .f32) (main_arg2 : FVec F S256 .f32) (main_arg3 : FVec F S256x128 .f32) (main_arg4 : FVec F S128 .f32) (main_arg5 : IVec S800000 32) (main_arg6 : IVec S800000 32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x256 .f32 := Host.absf main_arg1
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x128 .f32 := Host.absf main_arg3
  let main_cst_4 : FVec F S_ .f32 := constant S_ .f32 0x7F800000#32
  let main_v15 : FVec F S256x128 .f32 := broadcastInDim S256x128 ![] bcast_S_S256x128 main_cst_4
  let main_v16 : IVec S256x128 1 := cmpf .olt main_v14 main_v15
  fn_part1 (F := F) main_arg4 main_v13 main_v16
-- ==== Kernel.lean ====
abbrev S50000x128 : Shape := ⟨2, ![50000, 128]⟩
abbrev S128x256 : Shape := ⟨2, ![128, 256]⟩
abbrev S256 : Shape := ⟨1, ![256]⟩
abbrev S256x128 : Shape := ⟨2, ![256, 128]⟩
abbrev S128 : Shape := ⟨1, ![128]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x128 : Shape := ⟨2, ![800000, 128]⟩
abbrev S50000x256 : Shape := ⟨2, ![50000, 256]⟩
abbrev S5000x128 : Shape := ⟨2, ![5000, 128]⟩
abbrev S5000x256 : Shape := ⟨2, ![5000, 256]⟩
abbrev S1x256 : Shape := ⟨2, ![1, 256]⟩
abbrev S800000x256 : Shape := ⟨2, ![800000, 256]⟩
abbrev S1x128 : Shape := ⟨2, ![1, 128]⟩

abbrev nBuf : Space → Nat
  | .hbm => 49
  | .vmem => 16
  | .smem => 0
  | _ => 0

abbrev bufTy : (tb : Table) → Fin (tcTables nBuf tb) → BufTy
  | .hbm, ⟨0, _⟩ => ⟨S50000x128, .f32⟩
  | .hbm, ⟨1, _⟩ => ⟨S128x256, .f32⟩
  | .hbm, ⟨2, _⟩ => ⟨S256, .f32⟩
  | .hbm, ⟨3, _⟩ => ⟨S256x128, .f32⟩
  | .hbm, ⟨4, _⟩ => ⟨S128, .f32⟩
  | .hbm, ⟨5, _⟩ => ⟨S800000, .i32⟩
  | .hbm, ⟨6, _⟩ => ⟨S800000, .i32⟩
  | .hbm, ⟨7, _⟩ => ⟨S_, .f32⟩
  | .hbm, ⟨8, _⟩ => ⟨S800000, .f32⟩
  | .hbm, ⟨9, _⟩ => ⟨S_, .f32⟩
  | .hbm, ⟨10, _⟩ => ⟨S50000, .f32⟩
  | .hbm, ⟨11, _⟩ => ⟨S800000x1, .i32⟩
  | .hbm, ⟨12, _⟩ => ⟨S50000, .f32⟩
  | .hbm, ⟨13, _⟩ => ⟨S_, .f32⟩
  | .hbm, ⟨14, _⟩ => ⟨S50000, .f32⟩
  | .hbm, ⟨15, _⟩ => ⟨S50000, .f32⟩
  | .hbm, ⟨16, _⟩ => ⟨S50000x1, .f32⟩
  | .hbm, ⟨17, _⟩ => ⟨S_, .i32⟩
  | .hbm, ⟨18, _⟩ => ⟨S800000, .i32⟩
  | .hbm, ⟨19, _⟩ => ⟨S800000, .i1⟩
  | .hbm, ⟨20, _⟩ => ⟨S_, .i32⟩
  | .hbm, ⟨21, _⟩ => ⟨S800000, .i32⟩
  | .hbm, ⟨22, _⟩ => ⟨S800000, .i32⟩
  | .hbm, ⟨23, _⟩ => ⟨S800000, .i32⟩
  | .hbm, ⟨24, _⟩ => ⟨S800000x1, .i32⟩
  | .hbm, ⟨25, _⟩ => ⟨S800000x128, .f32⟩
  | .hbm, ⟨26, _⟩ => ⟨S_, .f32⟩
  | .hbm, ⟨27, _⟩ => ⟨S50000x128, .f32⟩
  | .hbm, ⟨28, _⟩ => ⟨S800000x1, .i32⟩
  | .hbm, ⟨29, _⟩ => ⟨S50000x128, .f32⟩
  | .hbm, ⟨30, _⟩ => ⟨S50000x128, .f32⟩
  | .hbm, ⟨31, _⟩ => ⟨S50000x128, .f32⟩
  | .hbm, ⟨32, _⟩ => ⟨S50000x256, .f32⟩
  | .hbm, ⟨33, _⟩ => ⟨S_, .i32⟩
  | .hbm, ⟨34, _⟩ => ⟨S800000, .i32⟩
  | .hbm, ⟨35, _⟩ => ⟨S800000, .i1⟩
  | .hbm, ⟨36, _⟩ => ⟨S_, .i32⟩
  | .hbm, ⟨37, _⟩ => ⟨S800000, .i32⟩
  | .hbm, ⟨38, _⟩ => ⟨S800000, .i32⟩
  | .hbm, ⟨39, _⟩ => ⟨S800000, .i32⟩
  | .hbm, ⟨40, _⟩ => ⟨S800000x1, .i32⟩
  | .hbm, ⟨41, _⟩ => ⟨S800000x256, .f32⟩
  | .hbm, ⟨42, _⟩ => ⟨S_, .f32⟩
  | .hbm, ⟨43, _⟩ => ⟨S50000x256, .f32⟩
  | .hbm, ⟨44, _⟩ => ⟨S800000x1, .i32⟩
  | .hbm, ⟨45, _⟩ => ⟨S50000x256, .f32⟩
  | .hbm, ⟨46, _⟩ => ⟨S50000x256, .f32⟩
  | .hbm, ⟨47, _⟩ => ⟨S50000x256, .f32⟩
  | .hbm, ⟨48, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x256, .f32⟩
  | .local _ .vmem, ⟨5, _⟩ => ⟨S256, .f32⟩
  | .local _ .vmem, ⟨6, _⟩ => ⟨S5000x256, .f32⟩
  | .local _ .vmem, ⟨7, _⟩ => ⟨S5000x256, .f32⟩
  | .local _ .vmem, ⟨8, _⟩ => ⟨S5000x256, .f32⟩
  | .local _ .vmem, ⟨9, _⟩ => ⟨S5000x256, .f32⟩
  | .local _ .vmem, ⟨10, _⟩ => ⟨S5000x256, .f32⟩
  | .local _ .vmem, ⟨11, _⟩ => ⟨S5000x256, .f32⟩
  | .local _ .vmem, ⟨12, _⟩ => ⟨S256x128, .f32⟩
  | .local _ .vmem, ⟨13, _⟩ => ⟨S128, .f32⟩
  | .local _ .vmem, ⟨14, _⟩ => ⟨S5000x128, .f32⟩
  | .local _ .vmem, ⟨15, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_c : Ref sig .tc := ⟨.hbm, 17, rfl⟩
abbrev main_v7 : Ref sig .tc := ⟨.hbm, 18, rfl⟩
abbrev main_v8 : Ref sig .tc := ⟨.hbm, 19, rfl⟩
abbrev main_c_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_3 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_c_4 : Ref sig .tc := ⟨.hbm, 33, rfl⟩
abbrev main_v20 : Ref sig .tc := ⟨.hbm, 34, rfl⟩
abbrev main_v21 : Ref sig .tc := ⟨.hbm, 35, rfl⟩
abbrev main_c_5 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_6 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg4_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem4_1 : DmaSem sig := 15

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S5000x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  inb_S256_S256_0 : ∀ a, (![0] : Fin 1 → Nat) a + S256.size a ≤ S256.size a
  h_S256 : 0 < S256.numel
  shapeCasts_S256_S1x256 : S256.ShapeCasts S1x256
  broadcasts_S1x256_S5000x256 : S1x256.Broadcasts S5000x256
  inb_S5000x256_S5000x256_0_0 : ∀ a, (![0, 0] : Fin 2 → Nat) a + S5000x256.size a ≤ S5000x256.size a
  h_S5000x256 : 0 < S5000x256.numel
  bcast_S_S50000x256 : S_.BroadcastsInDim S50000x256 (![] : Fin 0 → Fin S50000x256.rank)
  bcast_S50000x1_S50000x256_0_1 : S50000x1.BroadcastsInDim S50000x256 (![0, 1] : Fin 2 → Fin S50000x256.rank)
  shapeCasts_S5000x256_S5000x256 : S5000x256.ShapeCasts S5000x256
  inb_S256x128_S256x128_0_0 : ∀ a, (![0, 0] : Fin 2 → Nat) a + S256x128.size a ≤ S256x128.size a
  h_S256x128 : 0 < S256x128.numel
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x256_S5000x256_1_0_0_1_n_n_wf : DotDims.WF S5000x128 S128x256 S5000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S5000x256_S256x128_S5000x128_1_0_0_1_n_n_wf : DotDims.WF S5000x256 S256x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x256.size a ≤ S128x256.size a
  hwx0_2 : ∀ i : grid0.Coords, EltTy.bits .f32 = 32 ∨ (Rect.block (s := S128x256) S128x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256.size a ≤ S256.size a
  hwx0_3 : ∀ i : grid0.Coords, EltTy.bits .f32 = 32 ∨ (Rect.block (s := S256) S256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x256.size a ≤ S50000x256.size a
  hwx0_4 : ∀ i : grid0.Coords, EltTy.bits .f32 = 32 ∨ (Rect.block (s := S50000x256) S5000x256.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x256.size a ≤ S50000x256.size a
  hwx1_0 : ∀ i : grid1.Coords, EltTy.bits .f32 = 32 ∨ (Rect.block (s := S50000x256) S5000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x256.size a ≤ S50000x256.size a
  hwx1_1 : ∀ i : grid1.Coords, EltTy.bits .f32 = 32 ∨ (Rect.block (s := S50000x256) S5000x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x128.size a ≤ S256x128.size a
  hwx1_2 : ∀ i : grid1.Coords, EltTy.bits .f32 = 32 ∨ (Rect.block (s := S256x128) S256x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128.size a ≤ S128.size a
  hwx1_3 : ∀ i : grid1.Coords, EltTy.bits .f32 = 32 ∨ (Rect.block (s := S128) S128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S50000x128.size a
  hwx1_4 : ∀ i : grid1.Coords, EltTy.bits .f32 = 32 ∨ (Rect.block (s := S50000x128) S5000x128.size (cc1_transform_4 i) (hinb1_4 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x256_S5000x256_1_0_0_1_n_n : DotDims S5000x128 S128x256 S5000x256 where
  lhsContracting := [1]
  rhsContracting := [0]
  lhsNonContracting := [0]
  rhsNonContracting := [1]
  lhsBatch := []
  rhsBatch := []
  wf := dot_S5000x128_S128x256_S5000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S128x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v19) S5000x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v19) S5000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v31) S5000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg3) S256x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v32) S5000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S50000x128 : Shape := ⟨2, ![50000, 128]⟩
abbrev S128x256 : Shape := ⟨2, ![128, 256]⟩
abbrev S256 : Shape := ⟨1, ![256]⟩
abbrev S256x128 : Shape := ⟨2, ![256, 128]⟩
abbrev S128 : Shape := ⟨1, ![128]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x128 : Shape := ⟨2, ![800000, 128]⟩
abbrev S50000x256 : Shape := ⟨2, ![50000, 256]⟩
abbrev S1x256 : Shape := ⟨2, ![1, 256]⟩
abbrev S800000x256 : Shape := ⟨2, ![800000, 256]⟩
abbrev S1x128 : Shape := ⟨2, ![1, 128]⟩

abbrev nBuf : Space → Nat
  | .hbm => 63
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S128x256, .f32⟩
  | .hbm, ⟨2, _⟩ => ⟨S256, .f32⟩
  | .hbm, ⟨3, _⟩ => ⟨S256x128, .f32⟩
  | .hbm, ⟨4, _⟩ => ⟨S128, .f32⟩
  | .hbm, ⟨5, _⟩ => ⟨S800000, .i32⟩
  | .hbm, ⟨6, _⟩ => ⟨S800000, .i32⟩
  | .hbm, ⟨7, _⟩ => ⟨S_, .f32⟩
  | .hbm, ⟨8, _⟩ => ⟨S800000, .f32⟩
  | .hbm, ⟨9, _⟩ => ⟨S_, .f32⟩
  | .hbm, ⟨10, _⟩ => ⟨S50000, .f32⟩
  | .hbm, ⟨11, _⟩ => ⟨S800000x1, .i32⟩
  | .hbm, ⟨12, _⟩ => ⟨S50000, .f32⟩
  | .hbm, ⟨13, _⟩ => ⟨S_, .f32⟩
  | .hbm, ⟨14, _⟩ => ⟨S50000, .f32⟩
  | .hbm, ⟨15, _⟩ => ⟨S50000, .f32⟩
  | .hbm, ⟨16, _⟩ => ⟨S50000x1, .f32⟩
  | .hbm, ⟨17, _⟩ => ⟨S_, .i32⟩
  | .hbm, ⟨18, _⟩ => ⟨S800000, .i32⟩
  | .hbm, ⟨19, _⟩ => ⟨S800000, .i1⟩
  | .hbm, ⟨20, _⟩ => ⟨S_, .i32⟩
  | .hbm, ⟨21, _⟩ => ⟨S800000, .i32⟩
  | .hbm, ⟨22, _⟩ => ⟨S800000, .i32⟩
  | .hbm, ⟨23, _⟩ => ⟨S800000, .i32⟩
  | .hbm, ⟨24, _⟩ => ⟨S800000x1, .i32⟩
  | .hbm, ⟨25, _⟩ => ⟨S800000x128, .f32⟩
  | .hbm, ⟨26, _⟩ => ⟨S_, .f32⟩
  | .hbm, ⟨27, _⟩ => ⟨S50000x128, .f32⟩
  | .hbm, ⟨28, _⟩ => ⟨S800000x1, .i32⟩
  | .hbm, ⟨29, _⟩ => ⟨S50000x128, .f32⟩
  | .hbm, ⟨30, _⟩ => ⟨S50000x128, .f32⟩
  | .hbm, ⟨31, _⟩ => ⟨S50000x128, .f32⟩
  | .hbm, ⟨32, _⟩ => ⟨S50000x128, .f32⟩
  | .hbm, ⟨33, _⟩ => ⟨S50000x256, .f32⟩
  | .hbm, ⟨34, _⟩ => ⟨S1x256, .f32⟩
  | .hbm, ⟨35, _⟩ => ⟨S50000x256, .f32⟩
  | .hbm, ⟨36, _⟩ => ⟨S50000x256, .f32⟩
  | .hbm, ⟨37, _⟩ => ⟨S_, .f32⟩
  | .hbm, ⟨38, _⟩ => ⟨S50000x256, .f32⟩
  | .hbm, ⟨39, _⟩ => ⟨S50000x256, .f32⟩
  | .hbm, ⟨40, _⟩ => ⟨S_, .i32⟩
  | .hbm, ⟨41, _⟩ => ⟨S800000, .i32⟩
  | .hbm, ⟨42, _⟩ => ⟨S800000, .i1⟩
  | .hbm, ⟨43, _⟩ => ⟨S_, .i32⟩
  | .hbm, ⟨44, _⟩ => ⟨S800000, .i32⟩
  | .hbm, ⟨45, _⟩ => ⟨S800000, .i32⟩
  | .hbm, ⟨46, _⟩ => ⟨S800000, .i32⟩
  | .hbm, ⟨47, _⟩ => ⟨S800000x1, .i32⟩
  | .hbm, ⟨48, _⟩ => ⟨S800000x256, .f32⟩
  | .hbm, ⟨49, _⟩ => ⟨S_, .f32⟩
  | .hbm, ⟨50, _⟩ => ⟨S50000x256, .f32⟩
  | .hbm, ⟨51, _⟩ => ⟨S800000x1, .i32⟩
  | .hbm, ⟨52, _⟩ => ⟨S50000x256, .f32⟩
  | .hbm, ⟨53, _⟩ => ⟨S50000x256, .f32⟩
  | .hbm, ⟨54, _⟩ => ⟨S50000x256, .f32⟩
  | .hbm, ⟨55, _⟩ => ⟨S50000x256, .f32⟩
  | .hbm, ⟨56, _⟩ => ⟨S50000x128, .f32⟩
  | .hbm, ⟨57, _⟩ => ⟨S1x128, .f32⟩
  | .hbm, ⟨58, _⟩ => ⟨S50000x128, .f32⟩
  | .hbm, ⟨59, _⟩ => ⟨S50000x128, .f32⟩
  | .hbm, ⟨60, _⟩ => ⟨S_, .f32⟩
  | .hbm, ⟨61, _⟩ => ⟨S50000x128, .f32⟩
  | .hbm, ⟨62, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_c : Ref sig .tc := ⟨.hbm, 17, rfl⟩
abbrev main_v7 : Ref sig .tc := ⟨.hbm, 18, rfl⟩
abbrev main_v8 : Ref sig .tc := ⟨.hbm, 19, rfl⟩
abbrev main_c_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_3 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_call0_cst : Ref sig .tc := ⟨.hbm, 37, rfl⟩
abbrev main_call0_v0 : Ref sig .tc := ⟨.hbm, 38, rfl⟩
abbrev main_v24 : Ref sig .tc := ⟨.hbm, 39, rfl⟩
abbrev main_c_4 : Ref sig .tc := ⟨.hbm, 40, rfl⟩
abbrev main_v25 : Ref sig .tc := ⟨.hbm, 41, rfl⟩
abbrev main_v26 : Ref sig .tc := ⟨.hbm, 42, rfl⟩
abbrev main_c_5 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_cst_6 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_call1_cst : Ref sig .tc := ⟨.hbm, 60, rfl⟩
abbrev main_call1_v0 : Ref sig .tc := ⟨.hbm, 61, rfl⟩
abbrev main_v42 : Ref sig .tc := ⟨.hbm, 62, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S50000x256 : S_.BroadcastsInDim S50000x256 (![] : Fin 0 → Fin S50000x256.rank)
  bcast_S50000x1_S50000x256_0_1 : S50000x1.BroadcastsInDim S50000x256 (![0, 1] : Fin 2 → Fin S50000x256.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x256_S50000x256_1_0_0_1_n_n_wf : DotDims.WF S50000x128 S128x256 S50000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S50000x256_S256x128_S50000x128_1_0_0_1_n_n_wf : DotDims.WF S50000x256 S256x128 S50000x128 [1] [0] [0] [1] [] []

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf

class Facts : Prop extends Facts₀ where

variable [Facts]
-- ==== Proof.LibPlainDot.lean ====
/-
  A plain two-dimensional contraction read at one element over the extended reals.

  For the dimension numbers of an [M, K] by [K, N] product (the left operand's axis 1 contracted against the right
  operand's axis 0, no batch axis), entry (p, q) of the product is the sum over k of lhs (p, k) · rhs (k, q). This holds
  of a kernel's matrix product into a zero accumulator and of the host's dot_general alike, whatever the precision
  attribute: at the extended reals both are the textbook contraction. Generic in the three extents.
-/
import Idealize.ShloMosaic.PureOps.Ideal.Laws
import Idealize.ShloMosaic.Lib.ValueIdx

noncomputable section

namespace Cert.Lib.PlainDot

open Idealize.ShloMosaic Idealize.ShloMosaic.ValueIdx

variable (M K N : Nat)

/-- Axis 0 of the left operand is free: it reads the output's row coordinate. -/
theorem lhs_axis0 (i : (⟨2, ![M, N]⟩ : Shape).Idx) (r : (DotDims.plain M K N).contr.Idx) :
    ((DotDims.plain M K N).lhsIdx i r 0).val = (i 0).val := by
  unfold DotDims.lhsIdx
  rw [dif_neg (show ¬(0 : Fin (⟨2, ![M, K]⟩ : Shape).rank) ∈ (DotDims.plain M K N).lhsBatch by simp [DotDims.plain]),
    dif_pos (show (0 : Fin (⟨2, ![M, K]⟩ : Shape).rank) ∈ (DotDims.plain M K N).lhsNonContracting by simp [DotDims.plain])]
  rfl

/-- Axis 1 of the left operand is the contracted one: it reads the contraction position. -/
theorem lhs_axis1 (i : (⟨2, ![M, N]⟩ : Shape).Idx) (r : (DotDims.plain M K N).contr.Idx) :
    ((DotDims.plain M K N).lhsIdx i r 1).val = (r ⟨0, Nat.one_pos⟩).val :=
  (DotDims.plain M K N).lhsIdx_val_of_single rfl i r

/-- Axis 0 of the right operand is the contracted one. -/
theorem rhs_axis0 (i : (⟨2, ![M, N]⟩ : Shape).Idx) (r : (DotDims.plain M K N).contr.Idx) :
    ((DotDims.plain M K N).rhsIdx i r 0).val = (r ⟨0, Nat.one_pos⟩).val :=
  (DotDims.plain M K N).rhsIdx_val_of_single rfl i r

/-- Axis 1 of the right operand is free: it reads the output's column coordinate. -/
theorem rhs_axis1 (i : (⟨2, ![M, N]⟩ : Shape).Idx) (r : (DotDims.plain M K N).contr.Idx) :
    ((DotDims.plain M K N).rhsIdx i r 1).val = (i 1).val := by
  unfold DotDims.rhsIdx
  rw [dif_neg (show ¬(1 : Fin (⟨2, ![K, N]⟩ : Shape).rank) ∈ (DotDims.plain M K N).rhsBatch by simp [DotDims.plain]),
    dif_pos (show (1 : Fin (⟨2, ![K, N]⟩ : Shape).rank) ∈ (DotDims.plain M K N).rhsNonContracting by simp [DotDims.plain])]
  rfl

/-- The contraction's sum over its one-axis index shape, re-indexed by that axis' coordinate: the sum over
    `k : Fin K` of lhs (p, k) · rhs (k, q). -/
theorem sum_eq (lhs : (⟨2, ![M, K]⟩ : Shape).Idx → EReal) (rhs : (⟨2, ![K, N]⟩ : Shape).Idx → EReal)
    (p : Fin M) (q : Fin N) :
    (∑ r : (DotDims.plain M K N).contr.Idx,
        lhs ((DotDims.plain M K N).lhsIdx (ix2 p q) r) * rhs ((DotDims.plain M K N).rhsIdx (ix2 p q) r))
      = ∑ k : Fin K, lhs (ix2 p k) * rhs (ix2 k q) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact lhs_axis0 M K N _ _
      | ⟨1, _⟩ => exact (lhs_axis1 M K N _ _).trans hk)
  have er : (DotDims.plain M K N).rhsIdx (ix2 p q) ((contrEquiv1 (DotDims.plain M K N) K rfl rfl).symm k) = ix2 k q :=
    funext fun a => Fin.ext (by
      match a with
      | ⟨0, _⟩ => exact (rhs_axis0 M K N _ _).trans hk
      | ⟨1, _⟩ => exact rhs_axis1 M K N _ _)
  rw [el, er]

/-- A kernel's matrix product into the zero accumulator, at entry (p, q). -/
theorem matmul_zero_apply {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant ⟨2, ![M, N]⟩ .f32 0x00000000#32) (ix2 p q)
      = ∑ k : Fin K, lhs (ix2 p k) * rhs (ix2 k q) := by
  rw [Ideal.matmul_constant_zero_apply]
  exact sum_eq M K N lhs rhs p q

/-- The host's dot_general, at entry (p, q). -/
theorem dotGeneral_apply {φ₁ φ₂ : FTy} (prec : Option ContractPrecision) (sched : HostSchedule)
    (lhs : FVec Ideal ⟨2, ![M, K]⟩ φ₁) (rhs : FVec Ideal ⟨2, ![K, N]⟩ φ₂) (p : Fin M) (q : Fin N) :
    FloatOps.dotGeneral (DotDims.plain M K N) prec sched lhs rhs (ix2 p q)
      = ∑ k : Fin K, lhs (ix2 p k) * rhs (ix2 k q) := by
  rw [Ideal.dotGeneral_apply]
  exact sum_eq M K N lhs rhs p q

end Cert.Lib.PlainDot

end
-- ==== Proof.LayerSpec.lean ====
/-
  One layer of the message-passing network over the extended reals, read at an element.

  A layer takes node features `h` and their neighbour means `nm` (both [R, K]), weights `W` ([K, N]) and a bias `b` ([N]) to
  `relu ((h + nm) · W + b)`: entry (p, q) is the larger of 0 and  Σ_k (h[p,k] + nm[p,k]) · W[k,q] + b[q].
  Both the host's spelling of it (dot_general, the bias broadcast in two steps, maximum with a zero splat) and the kernel
  body's spelling on one block of rows (operands narrowed to bf16, the matrix unit's product into a zero accumulator, the bias
  reshaped to one row and spread, maximum with a zero splat) are that function, entry by entry; generic in the extents.
-/
import proofs.«121027_j44719199485974_1_alg».proof.Proof.LibPlainDot
import Idealize.ShloMosaic.Lib.ValueLayout
import Idealize.ShloMosaic.Lib.Pipeline.Value

noncomputable section

namespace Cert.Layer

open Idealize.ShloMosaic Idealize.ShloMosaic.ValueIdx

variable (R K N : Nat)

/-- Entry (p, q) of one layer: the row p of `h + nm` contracted against column q of the weights, plus the bias at q,
    cut off below at zero. -/
def layerAt (h nm : (⟨2, ![R, K]⟩ : Shape).Idx → EReal) (W : (⟨2, ![K, N]⟩ : Shape).Idx → EReal)
    (b : (⟨1, ![N]⟩ : Shape).Idx → EReal) (p : Fin R) (q : Fin N) : EReal :=
  max ((∑ k : Fin K, (h (ix2 p k) + nm (ix2 p k)) * W (ix2 k q)) + b (ix1 q)) 0

/-- The layer as one array: `relu ((h + nm) · W + b)`, entry by entry. -/
def layerFn (h nm : (⟨2, ![R, K]⟩ : Shape).Idx → EReal) (W : (⟨2, ![K, N]⟩ : Shape).Idx → EReal)
    (b : (⟨1, ![N]⟩ : Shape).Idx → EReal) : (⟨2, ![R, N]⟩ : Shape).Idx → EReal :=
  fun i => layerAt R K N h nm W b (i 0) (i 1)

theorem layerFn_ix2 (h nm : (⟨2, ![R, K]⟩ : Shape).Idx → EReal) (W : (⟨2, ![K, N]⟩ : Shape).Idx → EReal)
    (b : (⟨1, ![N]⟩ : Shape).Idx → EReal) (p : Fin R) (q : Fin N) :
    layerFn R K N h nm W b (ix2 p q) = layerAt R K N h nm W b p q := rfl

/-- Two layer entries agree when the rows, the weight columns and the bias entries they read agree, whatever arrays
    (of whatever row counts) those are read from. -/
theorem layerAt_congr {R' : Nat} (h nm : (⟨2, ![R, K]⟩ : Shape).Idx → EReal) (W : (⟨2, ![K, N]⟩ : Shape).Idx → EReal)
    (b : (⟨1, ![N]⟩ : Shape).Idx → EReal) (h' nm' : (⟨2, ![R', K]⟩ : Shape).Idx → EReal)
    (W' : (⟨2, ![K, N]⟩ : Shape).Idx → EReal) (b' : (⟨1, ![N]⟩ : Shape).Idx → EReal)
    (p : Fin R) (q : Fin N) (p' : Fin R') (q' : Fin N)
    (e0 : ∀ k, h (ix2 p k) = h' (ix2 p' k)) (e1 : ∀ k, nm (ix2 p k) = nm' (ix2 p' k))
    (e2 : ∀ k, W (ix2 k q) = W' (ix2 k q')) (e3 : b (ix1 q) = b' (ix1 q')) :
    layerAt R K N h nm W b p q = layerAt R' K N h' nm' W' b' p' q' := by
  unfold layerAt
  simp only [e0, e1, e2, e3]

/-- A bias row `[N]` laid out as `[1, N]` and then over `R` rows reads, at (p, q), the bias at q. -/
theorem bias_rows_apply {α : Type} (w1 : (⟨1, ![N]⟩ : Shape).BroadcastsInDim ⟨2, ![1, N]⟩ ![1])
    (w2 : (⟨2, ![1, N]⟩ : Shape).BroadcastsInDim ⟨2, ![R, N]⟩ ![0, 1]) (b : (⟨1, ![N]⟩ : Shape).Idx → α)
    (p : Fin R) (q : Fin N) :
    broadcastInDim ⟨2, ![R, N]⟩ ![0, 1] w2 (broadcastInDim ⟨2, ![1, N]⟩ ![1] w1 b) (ix2 p q) = b (ix1 q) := by
  rw [broadcastInDim_apply ![0, 1] w2 _ (ix2 p q) (ix2 (0 : Fin 1) q) (fun a => by
    match a with
    | ⟨0, _⟩ => rfl
    | ⟨1, _⟩ =>
      show q.val = if N = 1 then 0 else q.val
      split
      · have := q.isLt; omega
      · rfl)]
  exact broadcastInDim_apply ![1] w1 b (ix2 (0 : Fin 1) q) (ix1 q) (fun a => by
    match a with
    | ⟨0, _⟩ =>
      show q.val = if N = 1 then 0 else q.val
      split
      · have := q.isLt; omega
      · rfl)

/-- A scalar spread over an array reads the scalar everywhere. -/
theorem scalar_spread_apply {α : Type} {t : Shape} (w0 : (⟨0, ![]⟩ : Shape).BroadcastsInDim t ![])
    (x : (⟨0, ![]⟩ : Shape).Idx → α) (j : t.Idx) : broadcastInDim t ![] w0 x j = x ix0 :=
  broadcastInDim_apply ![] w0 x j ix0 (fun a => a.elim0)

/-- The host's form of the layer — `maximum (dot_general (h + nm) W + bias rows) 0` — is `layerFn`. -/
theorem host_layer (prec : Option ContractPrecision)
    (w0 : (⟨0, ![]⟩ : Shape).BroadcastsInDim ⟨2, ![R, N]⟩ ![])
    (w1 : (⟨1, ![N]⟩ : Shape).BroadcastsInDim ⟨2, ![1, N]⟩ ![1])
    (w2 : (⟨2, ![1, N]⟩ : Shape).BroadcastsInDim ⟨2, ![R, N]⟩ ![0, 1])
    (h nm : FVec Ideal ⟨2, ![R, K]⟩ .f32) (W : FVec Ideal ⟨2, ![K, N]⟩ .f32) (b : FVec Ideal ⟨1, ![N]⟩ .f32) :
    maximumf (addf (Host.dotGeneral (DotDims.plain R K N) prec (addf h nm) W)
        (broadcastInDim ⟨2, ![R, N]⟩ ![0, 1] w2 (broadcastInDim ⟨2, ![1, N]⟩ ![1] w1 b)))
      (broadcastInDim ⟨2, ![R, N]⟩ ![] w0 (constant (F := Ideal) ⟨0, ![]⟩ .f32 0x00000000#32))
    = layerFn R K N h nm W b := by
  funext i
  obtain ⟨p, q, rfl⟩ : ∃ (p : Fin R) (q : Fin N), i = ix2 p q := ⟨i 0, i 1, eq_ix2 i⟩
  rw [layerFn_ix2, maximumf_apply, addf_apply, bias_rows_apply, scalar_spread_apply, constant_apply,
    Ideal.ofBits_zero_f32]
  show max (FloatOps.dotGeneral (DotDims.plain R K N) prec .single (addf h nm) W (ix2 p q) + b (ix1 q)) 0 = _
  rw [Cert.Lib.PlainDot.dotGeneral_apply]
  rfl

/-- The kernel body's form of the layer on one block of `M` rows — both matrix-product operands narrowed to bf16 (no
    change of value over the extended reals), the product taken into a zero accumulator, the bias laid out as one row
    and spread over the rows, the maximum with a zero splat — read at (p, q). -/
theorem kernel_layer_apply (M : Nat) (prec : Option ContractPrecision)
    (hb : FTy.bf16.bits < FTy.f32.bits)
    (wc : (⟨1, ![N]⟩ : Shape).ShapeCasts ⟨2, ![1, N]⟩)
    (wb : (⟨2, ![1, N]⟩ : Shape).Broadcasts ⟨2, ![M, N]⟩)
    (x0 x1 : FVec Ideal ⟨2, ![M, K]⟩ .f32) (x2 : FVec Ideal ⟨2, ![K, N]⟩ .f32) (x3 : FVec Ideal ⟨1, ![N]⟩ .f32)
    (p : Fin M) (q : Fin N) :
    maximumf (addf (matmul (DotDims.plain M K N) prec (truncf .bf16 (addf x0 x1) hb) (truncf .bf16 x2 hb)
          (constant (F := Ideal) ⟨2, ![M, N]⟩ .f32 0x00000000#32))
        (broadcastTo ⟨2, ![M, N]⟩ (shapeCast ⟨2, ![1, N]⟩ x3 wc) wb))
      (broadcast ⟨2, ![M, N]⟩ (Scalar.ofBits (F := Ideal) .f32 0x00000000#32)) (ix2 p q)
    = layerAt M K N x0 x1 x2 x3 p q := by
  rw [maximumf_apply, addf_apply, broadcast_apply, broadcastTo_1b_ab_apply, shapeCast_a_1a_apply]
  show max (FloatOps.matmul (DotDims.plain M K N) prec (truncf .bf16 (addf x0 x1) hb) (truncf .bf16 x2 hb)
      (constant (F := Ideal) ⟨2, ![M, N]⟩ .f32 0x00000000#32) (ix2 p q) + x3 (ix1 q)) (Ideal.ofBits .f32 0x00000000#32) = _
  rw [Cert.Lib.PlainDot.matmul_zero_apply, Ideal.ofBits_zero_f32]
  rfl

end Cert.Layer

end
-- ==== Proof.Layer1Value.lean ====
/-
  The first layer's pallas_call as one array.

  The call walks the 50000 node rows in ten blocks of 5000. At block t the body reads rows 5000·t … 5000·t + 4999 of the node
  features and of their neighbour means, the whole weight matrix and the whole bias, and writes rows 5000·t … 5000·t + 4999 of the
  result. Entry (p, q) of what it writes is the layer's entry for row 5000·t + p: the larger of 0 and
  Σ_k (h[5000·t + p, k] + nm[5000·t + p, k]) · W[k, q] + b[q]. The ten blocks tile the result, so after the call the result array is
  the layer of the arrays the call found, entry by entry.
-/
import proofs.«121027_j44719199485974_1_alg».proof.Proof.Gen.KernelIdeal.Frame
import proofs.«121027_j44719199485974_1_alg».proof.Proof.LayerSpec
import Idealize.ShloMosaic.Lib.Pipeline.Value

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Layer1

open Cert.KernelIdeal Cert.KernelIdeal.Gen Cert.Layer

variable (V : (c : Dev nD) → (b : Ref sig .tc) → Buf (Elt Ideal) ((c : Thread nD τ).loc b))

theorem hz : (![0, 0] : Fin 2 → Nat) = fun _ => 0 := funext fun a => by fin_cases a <;> rfl
theorem hz1 : (![0] : Fin 1 → Nat) = fun _ => 0 := funext fun a => by fin_cases a <;> rfl

/-- What the body stores, at (p, q), is the layer's entry of the four blocks it loaded. -/
theorem pay_apply (x0 x1 : Vec Ideal S5000x128 .f32) (x2 : Vec Ideal S128x256 .f32) (x3 : Vec Ideal S256 .f32)
    (p : Fin 5000) (q : Fin 256) :
    k0_pay1 x0 x1 x2 x3 (ix2 p q) = layerAt 5000 128 256 x0 x1 x2 x3 p q := by
  unfold k0_pay1
  simp only [shapeCast_self]
  exact kernel_layer_apply 128 256 5000 none bitsLt_bf16_f32 shapeCasts_S256_S1x256 broadcasts_S1x256_S5000x256 x0 x1 x2 x3 p q

/-- The result array after the call: the layer of the arrays the call found. -/
abbrev G (c : Dev nD) : S50000x256.Idx → EReal :=
  layerFn 50000 128 256 (V c main_arg0) (V c main_v18) (V c main_arg1) (V c main_arg2)

/-- The block index maps over the ten points: the two row-blocked inputs move with the output, block t at point t; the
    weights and the bias stay at block 0. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = t.val ∧ win0_4.index t (1 : Fin 2) = 0 :=
  (by decide +kernel : ∀ t : Fin grid0.N, _)

/-- Row p of the feature block at point t is row 5000·t + p of the feature array. -/
theorem feat_block (c : Dev nD) (t : Fin cfg0.N) (p : Fin 5000) (k : Fin 128) (r : Fin 50000)
    (hr : r.val = t.val * 5000 + p.val) :
    (iblk0 V c 0 t : Vec Ideal S5000x128 .f32) (ix2 p k) = (V c main_arg0 : S50000x128.Idx → EReal) (ix2 r k) := by
  obtain ⟨e0, e1, -⟩ := idx_facts t
  unfold iblk0
  rw [View.read_apply]
  show V c main_arg0 _ = V c main_arg0 _
  congr 1
  funext a
  apply Fin.ext
  match a with
  | ⟨0, _⟩ => show win0_0.index t 0 * 5000 + 1 * p.val = r.val; rw [e0, hr]; omega
  | ⟨1, _⟩ => show win0_0.index t 1 * 128 + 1 * k.val = k.val; rw [e1]; omega

/-- Row p of the neighbour-mean block at point t is row 5000·t + p of the neighbour-mean array. -/
theorem mean_block (c : Dev nD) (t : Fin cfg0.N) (p : Fin 5000) (k : Fin 128) (r : Fin 50000)
    (hr : r.val = t.val * 5000 + p.val) :
    (iblk0 V c 1 t : Vec Ideal S5000x128 .f32) (ix2 p k) = (V c main_v18 : S50000x128.Idx → EReal) (ix2 r k) := by
  obtain ⟨-, -, e0, e1, -⟩ := idx_facts t
  unfold iblk0
  rw [View.read_apply]
  show V c main_v18 _ = V c main_v18 _
  congr 1
  funext a
  apply Fin.ext
  match a with
  | ⟨0, _⟩ => show win0_1.index t 0 * 5000 + 1 * p.val = r.val; rw [e0, hr]; omega
  | ⟨1, _⟩ => show win0_1.index t 1 * 128 + 1 * k.val = k.val; rw [e1]; omega

/-- The weight block at every point is the whole weight matrix. -/
theorem weight_block (c : Dev nD) (t : Fin cfg0.N) (k : Fin 128) (q : Fin 256) :
    (iblk0 V c 2 t : Vec Ideal S128x256 .f32) (ix2 k q) = (V c main_arg1 : S128x256.Idx → EReal) (ix2 k q) := by
  obtain ⟨-, -, -, -, e0, e1, -⟩ := idx_facts t
  unfold iblk0
  rw [View.read_apply]
  show V c main_arg1 _ = V c main_arg1 _
  congr 1
  funext a
  apply Fin.ext
  match a with
  | ⟨0, _⟩ => show win0_2.index t 0 * 128 + 1 * k.val = k.val; rw [e0]; omega
  | ⟨1, _⟩ => show win0_2.index t 1 * 256 + 1 * q.val = q.val; rw [e1]; omega

/-- The bias block at every point is the whole bias. -/
theorem bias_block (c : Dev nD) (t : Fin cfg0.N) (q : Fin 256) :
    (iblk0 V c 3 t : Vec Ideal S256 .f32) (ix1 q) = (V c main_arg2 : S256.Idx → EReal) (ix1 q) := by
  obtain ⟨-, -, -, -, -, -, e0, -⟩ := idx_facts t
  unfold iblk0
  rw [View.read_apply]
  show V c main_arg2 _ = V c main_arg2 _
  congr 1
  funext a
  apply Fin.ext
  match a with
  | ⟨0, _⟩ => show win0_3.index t 0 * 256 + 1 * q.val = q.val; rw [e0]; omega

/-- What point t writes back is block t of `G`. -/
theorem flushed_eq (c : Dev nD) (t : Fin cfg0.N) :
    (dat0 V c).flushed 4 t = ((cfg0.win 4).blk t).view.read (Elt Ideal) (G V c) := by
  show (cfg0.win 4).cut (grid0.coords t) ((dat0 V c).after 4 t) = _
  rw [after0_4]
  unfold out0_4
  rw [View.canon_unit_zero hz]
  simp only [View.ld_unit_zero (S := S5000x128) hz, View.ld_unit_zero (S := S128x256) hz, View.ld_unit_zero (S := S256) hz1]
  obtain ⟨-, -, -, -, -, -, -, e0, e1⟩ := idx_facts t
  funext j
  obtain ⟨p, q, rfl⟩ : ∃ (p : Fin 5000) (q : Fin 256), j = ix2 p q := ⟨j 0, j 1, eq_ix2 j⟩
  show k0_pay1 (iblk0 V c 0 t) (iblk0 V c 1 t) (iblk0 V c 2 t) (iblk0 V c 3 t) (ix2 p q)
    = layerAt 50000 128 256 (V c main_arg0) (V c main_v18) (V c main_arg1) (V c main_arg2)
        ((((cfg0.win 4).blk t).view.emb (ix2 p q)) 0) ((((cfg0.win 4).blk t).view.emb (ix2 p q)) 1)
  rw [pay_apply]
  have hr : ((((cfg0.win 4).blk t).view.emb (ix2 p q)) 0).val = t.val * 5000 + p.val := by
    show win0_4.index t 0 * 5000 + 1 * p.val = _; rw [e0]; omega
  have hq : (((cfg0.win 4).blk t).view.emb (ix2 p q)) 1 = q := by
    apply Fin.ext; show win0_4.index t 1 * 256 + 1 * q.val = _; rw [e1]; omega
  rw [hq]
  exact layerAt_congr 5000 128 256 _ _ _ _ _ _ _ _ p q _ q
    (fun k => feat_block V c t p k _ hr) (fun k => mean_block V c t p k _ hr)
    (fun k => weight_block V c t k q) (bias_block V c t q)

/-- An entry of the result array lies in point t's block iff each coordinate lies in the block's range on its axis. -/
theorem mem_blk (t : Fin cfg0.N) (i : S50000x256.Idx) :
    i ∈ ((cfg0.win 4).blk t).view.set ↔ ∀ a : Fin 2, win0_4.index t a * S5000x256.size a ≤ (i a).val ∧ (i a).val < win0_4.index t a * S5000x256.size a + S5000x256.size a := by
  show i ∈ ((View.whole main_v19).slice (win0_4.rect t)).set ↔ _
  rw [View.set_slice_whole, Rect.mem_set_unit]
  exact Iff.rfl

/-- Every entry of the result array lies in some point's block: row r in the block of point r / 5000. -/
theorem covered (i : S50000x256.Idx) : ∃ t : Fin cfg0.N, (cfg0.win 4).flush t = true ∧ i ∈ ((cfg0.win 4).blk t).view.set := by
  have hi0 : (i 0).val < 50000 := (i 0).isLt
  have hi1 : (i 1).val < 256 := (i 1).isLt
  have hN : cfg0.N = 10 := N_0
  have ht : (i 0).val / 5000 < cfg0.N := by rw [hN]; omega
  obtain ⟨-, -, -, -, -, -, -, e0, e1⟩ := idx_facts ⟨(i 0).val / 5000, ht⟩
  refine ⟨⟨(i 0).val / 5000, ht⟩, flush0_4 _, ?_⟩
  rw [mem_blk]
  intro a
  match a with
  | ⟨0, _⟩ =>
    show win0_4.index ⟨(i 0).val / 5000, ht⟩ (0 : Fin 2) * 5000 ≤ (i 0).val ∧ (i 0).val < win0_4.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win0_4.index ⟨(i 0).val / 5000, ht⟩ (1 : Fin 2) * 256 ≤ (i 1).val ∧ (i 1).val < win0_4.index ⟨(i 0).val / 5000, ht⟩ (1 : Fin 2) * 256 + 256
    rw [e1]; omega

/-- The ten blocks tile the result array, so it ends holding `G`. -/
theorem final (c : Dev nD) : (dat0 V c).arrAt 4 cfg0.N = G V c :=
  (dat0 V c).arrAt_eq_of_cover 4 (G V c) (fun t _ => flushed_eq V c t) covered

end Cert.KernelIdeal.Layer1

end
-- ==== Proof.Layer2Value.lean ====
/-
  The second layer's pallas_call as one array.

  The call walks the 50000 node rows in ten blocks of 5000. At block t the body reads rows 5000·t … 5000·t + 4999 of the node
  features and of their neighbour means, the whole weight matrix and the whole bias, and writes rows 5000·t … 5000·t + 4999 of the
  result. Entry (p, q) of what it writes is the layer's entry for row 5000·t + p: the larger of 0 and
  Σ_k (h[5000·t + p, k] + nm[5000·t + p, k]) · W[k, q] + b[q]. The ten blocks tile the result, so after the call the result array is
  the layer of the arrays the call found, entry by entry.
-/
import proofs.«121027_j44719199485974_1_alg».proof.Proof.Gen.KernelIdeal.Frame
import proofs.«121027_j44719199485974_1_alg».proof.Proof.LayerSpec
import Idealize.ShloMosaic.Lib.Pipeline.Value

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Layer2

open Cert.KernelIdeal Cert.KernelIdeal.Gen Cert.Layer

variable (V : (c : Dev nD) → (b : Ref sig .tc) → Buf (Elt Ideal) ((c : Thread nD τ).loc b))

theorem hz : (![0, 0] : Fin 2 → Nat) = fun _ => 0 := funext fun a => by fin_cases a <;> rfl
theorem hz1 : (![0] : Fin 1 → Nat) = fun _ => 0 := funext fun a => by fin_cases a <;> rfl

/-- What the body stores, at (p, q), is the layer's entry of the four blocks it loaded. -/
theorem pay_apply (x0 x1 : Vec Ideal S5000x256 .f32) (x2 : Vec Ideal S256x128 .f32) (x3 : Vec Ideal S128 .f32)
    (p : Fin 5000) (q : Fin 128) :
    k1_pay1 x0 x1 x2 x3 (ix2 p q) = layerAt 5000 256 128 x0 x1 x2 x3 p q := by
  unfold k1_pay1
  simp only [shapeCast_self]
  exact kernel_layer_apply 256 128 5000 none bitsLt_bf16_f32 shapeCasts_S128_S1x128 broadcasts_S1x128_S5000x128 x0 x1 x2 x3 p q

/-- The result array after the call: the layer of the arrays the call found. -/
abbrev G (c : Dev nD) : S50000x128.Idx → EReal :=
  layerFn 50000 256 128 (V c main_v19) (V c main_v31) (V c main_arg3) (V c main_arg4)

/-- The block index maps over the ten points: the two row-blocked inputs move with the output, block t at point t; the
    weights and the bias stay at block 0. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 1) = 0
    ∧ win1_4.index t (0 : Fin 2) = t.val ∧ win1_4.index t (1 : Fin 2) = 0 :=
  (by decide +kernel : ∀ t : Fin grid1.N, _)

/-- Row p of the feature block at point t is row 5000·t + p of the feature array. -/
theorem feat_block (c : Dev nD) (t : Fin cfg1.N) (p : Fin 5000) (k : Fin 256) (r : Fin 50000)
    (hr : r.val = t.val * 5000 + p.val) :
    (iblk1 V c 0 t : Vec Ideal S5000x256 .f32) (ix2 p k) = (V c main_v19 : S50000x256.Idx → EReal) (ix2 r k) := by
  obtain ⟨e0, e1, -⟩ := idx_facts t
  unfold iblk1
  rw [View.read_apply]
  show V c main_v19 _ = V c main_v19 _
  congr 1
  funext a
  apply Fin.ext
  match a with
  | ⟨0, _⟩ => show win1_0.index t 0 * 5000 + 1 * p.val = r.val; rw [e0, hr]; omega
  | ⟨1, _⟩ => show win1_0.index t 1 * 256 + 1 * k.val = k.val; rw [e1]; omega

/-- Row p of the neighbour-mean block at point t is row 5000·t + p of the neighbour-mean array. -/
theorem mean_block (c : Dev nD) (t : Fin cfg1.N) (p : Fin 5000) (k : Fin 256) (r : Fin 50000)
    (hr : r.val = t.val * 5000 + p.val) :
    (iblk1 V c 1 t : Vec Ideal S5000x256 .f32) (ix2 p k) = (V c main_v31 : S50000x256.Idx → EReal) (ix2 r k) := by
  obtain ⟨-, -, e0, e1, -⟩ := idx_facts t
  unfold iblk1
  rw [View.read_apply]
  show V c main_v31 _ = V c main_v31 _
  congr 1
  funext a
  apply Fin.ext
  match a with
  | ⟨0, _⟩ => show win1_1.index t 0 * 5000 + 1 * p.val = r.val; rw [e0, hr]; omega
  | ⟨1, _⟩ => show win1_1.index t 1 * 256 + 1 * k.val = k.val; rw [e1]; omega

/-- The weight block at every point is the whole weight matrix. -/
theorem weight_block (c : Dev nD) (t : Fin cfg1.N) (k : Fin 256) (q : Fin 128) :
    (iblk1 V c 2 t : Vec Ideal S256x128 .f32) (ix2 k q) = (V c main_arg3 : S256x128.Idx → EReal) (ix2 k q) := by
  obtain ⟨-, -, -, -, e0, e1, -⟩ := idx_facts t
  unfold iblk1
  rw [View.read_apply]
  show V c main_arg3 _ = V c main_arg3 _
  congr 1
  funext a
  apply Fin.ext
  match a with
  | ⟨0, _⟩ => show win1_2.index t 0 * 256 + 1 * k.val = k.val; rw [e0]; omega
  | ⟨1, _⟩ => show win1_2.index t 1 * 128 + 1 * q.val = q.val; rw [e1]; omega

/-- The bias block at every point is the whole bias. -/
theorem bias_block (c : Dev nD) (t : Fin cfg1.N) (q : Fin 128) :
    (iblk1 V c 3 t : Vec Ideal S128 .f32) (ix1 q) = (V c main_arg4 : S128.Idx → EReal) (ix1 q) := by
  obtain ⟨-, -, -, -, -, -, e0, -⟩ := idx_facts t
  unfold iblk1
  rw [View.read_apply]
  show V c main_arg4 _ = V c main_arg4 _
  congr 1
  funext a
  apply Fin.ext
  match a with
  | ⟨0, _⟩ => show win1_3.index t 0 * 128 + 1 * q.val = q.val; rw [e0]; omega

/-- What point t writes back is block t of `G`. -/
theorem flushed_eq (c : Dev nD) (t : Fin cfg1.N) :
    (dat1 V c).flushed 4 t = ((cfg1.win 4).blk t).view.read (Elt Ideal) (G V c) := by
  show (cfg1.win 4).cut (grid1.coords t) ((dat1 V c).after 4 t) = _
  rw [after1_4]
  unfold out1_4
  rw [View.canon_unit_zero hz]
  simp only [View.ld_unit_zero (S := S5000x256) hz, View.ld_unit_zero (S := S256x128) hz, View.ld_unit_zero (S := S128) hz1]
  obtain ⟨-, -, -, -, -, -, -, e0, e1⟩ := idx_facts t
  funext j
  obtain ⟨p, q, rfl⟩ : ∃ (p : Fin 5000) (q : Fin 128), j = ix2 p q := ⟨j 0, j 1, eq_ix2 j⟩
  show k1_pay1 (iblk1 V c 0 t) (iblk1 V c 1 t) (iblk1 V c 2 t) (iblk1 V c 3 t) (ix2 p q)
    = layerAt 50000 256 128 (V c main_v19) (V c main_v31) (V c main_arg3) (V c main_arg4)
        ((((cfg1.win 4).blk t).view.emb (ix2 p q)) 0) ((((cfg1.win 4).blk t).view.emb (ix2 p q)) 1)
  rw [pay_apply]
  have hr : ((((cfg1.win 4).blk t).view.emb (ix2 p q)) 0).val = t.val * 5000 + p.val := by
    show win1_4.index t 0 * 5000 + 1 * p.val = _; rw [e0]; omega
  have hq : (((cfg1.win 4).blk t).view.emb (ix2 p q)) 1 = q := by
    apply Fin.ext; show win1_4.index t 1 * 128 + 1 * q.val = _; rw [e1]; omega
  rw [hq]
  exact layerAt_congr 5000 256 128 _ _ _ _ _ _ _ _ p q _ q
    (fun k => feat_block V c t p k _ hr) (fun k => mean_block V c t p k _ hr)
    (fun k => weight_block V c t k q) (bias_block V c t q)

/-- An entry of the result array lies in point t's block iff each coordinate lies in the block's range on its axis. -/
theorem mem_blk (t : Fin cfg1.N) (i : S50000x128.Idx) :
    i ∈ ((cfg1.win 4).blk t).view.set ↔ ∀ a : Fin 2, win1_4.index t a * S5000x128.size a ≤ (i a).val ∧ (i a).val < win1_4.index t a * S5000x128.size a + S5000x128.size a := by
  show i ∈ ((View.whole main_v32).slice (win1_4.rect t)).set ↔ _
  rw [View.set_slice_whole, Rect.mem_set_unit]
  exact Iff.rfl

/-- Every entry of the result array lies in some point's block: row r in the block of point r / 5000. -/
theorem covered (i : S50000x128.Idx) : ∃ t : Fin cfg1.N, (cfg1.win 4).flush t = true ∧ i ∈ ((cfg1.win 4).blk t).view.set := by
  have hi0 : (i 0).val < 50000 := (i 0).isLt
  have hi1 : (i 1).val < 128 := (i 1).isLt
  have hN : cfg1.N = 10 := N_1
  have ht : (i 0).val / 5000 < cfg1.N := by rw [hN]; omega
  obtain ⟨-, -, -, -, -, -, -, e0, e1⟩ := idx_facts ⟨(i 0).val / 5000, ht⟩
  refine ⟨⟨(i 0).val / 5000, ht⟩, flush1_4 _, ?_⟩
  rw [mem_blk]
  intro a
  match a with
  | ⟨0, _⟩ =>
    show win1_4.index ⟨(i 0).val / 5000, ht⟩ (0 : Fin 2) * 5000 ≤ (i 0).val ∧ (i 0).val < win1_4.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win1_4.index ⟨(i 0).val / 5000, ht⟩ (1 : Fin 2) * 128 ≤ (i 1).val ∧ (i 1).val < win1_4.index ⟨(i 0).val / 5000, ht⟩ (1 : Fin 2) * 128 + 128
    rw [e1]; omega

/-- The ten blocks tile the result array, so it ends holding `G`. -/
theorem final (c : Dev nD) : (dat1 V c).arrAt 4 cfg1.N = G V c :=
  (dat1 V c).arrAt_eq_of_cover 4 (G V c) (fun t _ => flushed_eq V c t) covered

end Cert.KernelIdeal.Layer2

end
-- ==== Proof.Model.lean ====
/-
  The two-layer network as ONE function of its seven inputs, in the host's own words for everything but the dense part.

  With `deg[n] = max (number of edges into n, 1)` and, for node features `h`,
  `mean h [n, k] = (Σ over edges e into n of h[src e, k]) / deg[n]`   (the host's gather, scatter-add and divide, kept opaque),
  a layer is `relu ((h + mean h) · W + b)` and the network is the second layer of the first layer of `x`.
  The gather, the scatter-add and the division are never opened: both programs apply the same host operations to the same
  arrays. The dense part of each layer is `Cert.Layer.layerFn`, and the host's spelling of it (dot_general, two broadcasts
  of the bias, maximum with a zero splat) is that function.
-/
import proofs.«121027_j44719199485974_1_alg».proof.Proof.Gen.ReferenceIdeal
import proofs.«121027_j44719199485974_1_alg».proof.Proof.LayerSpec

noncomputable section

namespace Cert.Model

open Idealize.ShloMosaic Cert.ReferenceIdeal Cert.ReferenceIdeal.Gen Cert.Layer

/-- `max (in-degree, 1)` per node, as a column: ones scattered onto zeros along the destination indices, then the
    maximum with one. -/
def degCol (dst : IVec S800000 32) : FVec Ideal S50000x1 .f32 :=
  broadcastInDim S50000x1 ![0] bcast_S50000_S50000x1_0 (maximumf (Host.scatterAdd scatter_S50000_S800000x1_S800000_n_0_0_1 (broadcastInDim S50000 ![] bcast_S_S50000 (constant S_ .f32 0x00000000#32)) (broadcastInDim S800000x1 ![0] bcast_S800000_S800000x1_0 dst) (broadcastInDim S800000 ![] bcast_S_S800000 (constant S_ .f32 0x3F800000#32))) (broadcastInDim S50000 ![] bcast_S_S50000 (constant S_ .f32 0x3F800000#32)))

/-- The source indices as the gather takes them: a negative index counted from the end, the indices as one column. -/
def srcCol (src : IVec S800000 32) : IVec S800000x1 32 :=
  broadcastInDim S800000x1 ![0] bcast_S800000_S800000x1_0 (select (cmpi .slt src (broadcastInDim S800000 ![] bcast_S_S800000 (constantI S_ 32 0#32))) (addi src (broadcastInDim S800000 ![] bcast_S_S800000 (constantI S_ 32 50000#32))) src)

/-- The neighbour sums of 128-wide features divided by a given degree column. -/
def meanOver128 (h : FVec Ideal S50000x128 .f32) (src dst : IVec S800000 32) (deg : FVec Ideal S50000x1 .f32) : FVec Ideal S50000x128 .f32 :=
  Host.divf (Host.scatterAdd scatter_S50000x128_S800000x1_S800000x128_1_0_0_1 (broadcastInDim S50000x128 ![] bcast_S_S50000x128 (constant S_ .f32 0x00000000#32)) (broadcastInDim S800000x1 ![0] bcast_S800000_S800000x1_0 dst) (Host.gather gather_S50000x128_S800000x1_S800000x128_1_0_n_n_0_1_1128 h (srcCol src))) (broadcastInDim S50000x128 ![0, 1] bcast_S50000x1_S50000x128_0_1 deg)

/-- The neighbour sums of 256-wide features divided by a given degree column. -/
def meanOver256 (h : FVec Ideal S50000x256 .f32) (src dst : IVec S800000 32) (deg : FVec Ideal S50000x1 .f32) : FVec Ideal S50000x256 .f32 :=
  Host.divf (Host.scatterAdd scatter_S50000x256_S800000x1_S800000x256_1_0_0_1 (broadcastInDim S50000x256 ![] bcast_S_S50000x256 (constant S_ .f32 0x00000000#32)) (broadcastInDim S800000x1 ![0] bcast_S800000_S800000x1_0 dst) (Host.gather gather_S50000x256_S800000x1_S800000x256_1_0_n_n_0_1_1256 h (srcCol src))) (broadcastInDim S50000x256 ![0, 1] bcast_S50000x1_S50000x256_0_1 deg)

/-- The neighbour mean of 128-wide features. -/
def mean128 (h : FVec Ideal S50000x128 .f32) (src dst : IVec S800000 32) : FVec Ideal S50000x128 .f32 :=
  meanOver128 h src dst (degCol dst)

/-- The neighbour mean of 256-wide features. -/
def mean256 (h : FVec Ideal S50000x256 .f32) (src dst : IVec S800000 32) : FVec Ideal S50000x256 .f32 :=
  meanOver256 h src dst (degCol dst)

/-- The host's spelling of the first layer's dense part. -/
def hostLayer1 (h nm : FVec Ideal S50000x128 .f32) (W : FVec Ideal S128x256 .f32) (b : FVec Ideal S256 .f32) : FVec Ideal S50000x256 .f32 :=
  maximumf (addf (Host.dotGeneral dot_S50000x128_S128x256_S50000x256_1_0_0_1_n_n none (addf h nm) W) (broadcastInDim S50000x256 ![0, 1] bcast_S1x256_S50000x256_0_1 (broadcastInDim S1x256 ![1] bcast_S256_S1x256_1 b))) (broadcastInDim S50000x256 ![] bcast_S_S50000x256 (constant S_ .f32 0x00000000#32))

/-- The host's spelling of the second layer's dense part. -/
def hostLayer2 (h nm : FVec Ideal S50000x256 .f32) (W : FVec Ideal S256x128 .f32) (b : FVec Ideal S128 .f32) : FVec Ideal S50000x128 .f32 :=
  maximumf (addf (Host.dotGeneral dot_S50000x256_S256x128_S50000x128_1_0_0_1_n_n none (addf h nm) W) (broadcastInDim S50000x128 ![0, 1] bcast_S1x128_S50000x128_0_1 (broadcastInDim S1x128 ![1] bcast_S128_S1x128_1 b))) (broadcastInDim S50000x128 ![] bcast_S_S50000x128 (constant S_ .f32 0x00000000#32))

theorem hostLayer1_eq (h nm : FVec Ideal S50000x128 .f32) (W : FVec Ideal S128x256 .f32) (b : FVec Ideal S256 .f32) :
    hostLayer1 h nm W b = layerFn 50000 128 256 h nm W b :=
  host_layer 50000 128 256 none bcast_S_S50000x256 bcast_S256_S1x256_1 bcast_S1x256_S50000x256_0_1 h nm W b

theorem hostLayer2_eq (h nm : FVec Ideal S50000x256 .f32) (W : FVec Ideal S256x128 .f32) (b : FVec Ideal S128 .f32) :
    hostLayer2 h nm W b = layerFn 50000 256 128 h nm W b :=
  host_layer 50000 256 128 none bcast_S_S50000x128 bcast_S128_S1x128_1 bcast_S1x128_S50000x128_0_1 h nm W b

/-- The network: the second layer of the first layer of `x`. -/
def model (x : FVec Ideal S50000x128 .f32) (W1 : FVec Ideal S128x256 .f32) (b1 : FVec Ideal S256 .f32)
    (W2 : FVec Ideal S256x128 .f32) (b2 : FVec Ideal S128 .f32) (src dst : IVec S800000 32) : S50000x128.Idx → EReal :=
  layerFn 50000 256 128 (layerFn 50000 128 256 x (mean128 x src dst) W1 b1)
    (mean256 (layerFn 50000 128 256 x (mean128 x src dst) W1 b1) src dst) W2 b2

/-- The network in the host's spelling throughout. -/
theorem model_eq_host (x : FVec Ideal S50000x128 .f32) (W1 : FVec Ideal S128x256 .f32) (b1 : FVec Ideal S256 .f32)
    (W2 : FVec Ideal S256x128 .f32) (b2 : FVec Ideal S128 .f32) (src dst : IVec S800000 32) :
    model x W1 b1 W2 b2 src dst
      = hostLayer2 (hostLayer1 x (mean128 x src dst) W1 b1) (mean256 (hostLayer1 x (mean128 x src dst) W1 b1) src dst) W2 b2 := by
  unfold model
  rw [hostLayer2_eq, hostLayer1_eq]

end Cert.Model

end
-- ==== Proof.KernelValue.lean ====
/-
  The kernel program's result is the network function of its inputs.

  Its @main is four stretches: host operations, the first layer's call, host operations, the second layer's call. Reading the
  buffers at each boundary: the first stretch leaves the arguments alone and computes the degree column and the neighbour mean
  of `x`; the first call leaves in its result array the first layer of what it found (`Layer1.final`); the second stretch keeps
  that array, the degree column and the arguments and computes the neighbour mean of the first layer's result; the second call
  leaves the second layer of what it found (`Layer2.final`). Composed, the result buffer holds `Cert.Model.model` of the
  seven argument arrays.
-/
import proofs.«121027_j44719199485974_1_alg».proof.Proof.KernelRun
import proofs.«121027_j44719199485974_1_alg».proof.Proof.Layer1Value
import proofs.«121027_j44719199485974_1_alg».proof.Proof.Layer2Value
import proofs.«121027_j44719199485974_1_alg».proof.Proof.Model
import Idealize.ShloMosaic.Lib.StableHlo.Run

set_option maxRecDepth 16384

noncomputable section

namespace Cert.KernelIdeal.Chain

open Idealize.ShloMosaic Idealize.ShloMosaic.TcCoe Idealize.SL.Sem Idealize.ShloMosaic.StableHlo
open Cert.KernelIdeal Cert.KernelIdeal.Gen Cert.Layer

/-! ## The two host stretches, from any buffer contents -/

section Stretches

variable (W : Valuation τ sig (Elt Ideal))

/-- The first stretch writes none of the arguments. -/
theorem ops0_arg0 : after (hostOps0 (F := Ideal)) W (Proc.devRef .tc main_arg0) = W (Proc.devRef .tc main_arg0) := by
  dsimp only [hostOps0]; after_results_simp <;> rfl
theorem ops0_arg1 : after (hostOps0 (F := Ideal)) W (Proc.devRef .tc main_arg1) = W (Proc.devRef .tc main_arg1) := by
  dsimp only [hostOps0]; after_results_simp <;> rfl
theorem ops0_arg2 : after (hostOps0 (F := Ideal)) W (Proc.devRef .tc main_arg2) = W (Proc.devRef .tc main_arg2) := by
  dsimp only [hostOps0]; after_results_simp <;> rfl
theorem ops0_arg3 : after (hostOps0 (F := Ideal)) W (Proc.devRef .tc main_arg3) = W (Proc.devRef .tc main_arg3) := by
  dsimp only [hostOps0]; after_results_simp <;> rfl
theorem ops0_arg4 : after (hostOps0 (F := Ideal)) W (Proc.devRef .tc main_arg4) = W (Proc.devRef .tc main_arg4) := by
  dsimp only [hostOps0]; after_results_simp <;> rfl
theorem ops0_arg5 : after (hostOps0 (F := Ideal)) W (Proc.devRef .tc main_arg5) = W (Proc.devRef .tc main_arg5) := by
  dsimp only [hostOps0]; after_results_simp <;> rfl
theorem ops0_arg6 : after (hostOps0 (F := Ideal)) W (Proc.devRef .tc main_arg6) = W (Proc.devRef .tc main_arg6) := by
  dsimp only [hostOps0]; after_results_simp <;> rfl

/-- The first stretch leaves the degree column of the destination indices in `main_v6`. -/
theorem ops0_deg : after (hostOps0 (F := Ideal)) W (Proc.devRef .tc main_v6)
    = Cert.Model.degCol (W (Proc.devRef .tc main_arg6)) := by
  dsimp only [hostOps0]; after_results_simp <;> rfl

/-- The first stretch leaves the neighbour mean of `x` in `main_v18`. -/
theorem ops0_mean : after (hostOps0 (F := Ideal)) W (Proc.devRef .tc main_v18)
    = Cert.Model.mean128 (W (Proc.devRef .tc main_arg0)) (W (Proc.devRef .tc main_arg5)) (W (Proc.devRef .tc main_arg6)) := by
  dsimp only [hostOps0]; after_results_simp <;> rfl

/-- The second stretch writes neither the first call's result nor the second layer's weights and bias. -/
theorem ops1_v19 : after (hostOps1 (F := Ideal)) W (Proc.devRef .tc main_v19) = W (Proc.devRef .tc main_v19) := by
  dsimp only [hostOps1]; after_results_simp <;> rfl
theorem ops1_arg3 : after (hostOps1 (F := Ideal)) W (Proc.devRef .tc main_arg3) = W (Proc.devRef .tc main_arg3) := by
  dsimp only [hostOps1]; after_results_simp <;> rfl
theorem ops1_arg4 : after (hostOps1 (F := Ideal)) W (Proc.devRef .tc main_arg4) = W (Proc.devRef .tc main_arg4) := by
  dsimp only [hostOps1]; after_results_simp <;> rfl

/-- The second stretch leaves in `main_v31` the neighbour sums of the first call's result over the degree column it finds
    in `main_v6`. -/
theorem ops1_mean : after (hostOps1 (F := Ideal)) W (Proc.devRef .tc main_v31)
    = Cert.Model.meanOver256 (W (Proc.devRef .tc main_v19)) (W (Proc.devRef .tc main_arg5)) (W (Proc.devRef .tc main_arg6))
        (W (Proc.devRef .tc main_v6)) := by
  dsimp only [hostOps1]; after_results_simp <;> rfl

end Stretches

/-! ## The boundaries of the run -/

variable (m : (ℓ : Loc nD τ sig) → Buf (Elt Ideal) ℓ) (ρ : Dev nD → PrngReg)

/-- The first layer's result as the model names it. -/
abbrev hidden (c : Dev nD) : S50000x256.Idx → EReal :=
  layerFn 50000 128 256 (m ((c.tc : Thread nD τ).loc main_arg0))
    (Cert.Model.mean128 (m ((c.tc : Thread nD τ).loc main_arg0)) (m ((c.tc : Thread nD τ).loc main_arg5)) (m ((c.tc : Thread nD τ).loc main_arg6)))
    (m ((c.tc : Thread nD τ).loc main_arg1)) (m ((c.tc : Thread nD τ).loc main_arg2))

/-- What the first call finds: the arguments as launched and the neighbour mean of `x`. -/
theorem V1_arg0 (c : Dev nD) : V1 m ρ c main_arg0 = m ((c.tc : Thread nD τ).loc main_arg0) := ops0_arg0 (W0 m ρ c)
theorem V1_arg1 (c : Dev nD) : V1 m ρ c main_arg1 = m ((c.tc : Thread nD τ).loc main_arg1) := ops0_arg1 (W0 m ρ c)
theorem V1_arg2 (c : Dev nD) : V1 m ρ c main_arg2 = m ((c.tc : Thread nD τ).loc main_arg2) := ops0_arg2 (W0 m ρ c)
theorem V1_v18 (c : Dev nD) : V1 m ρ c main_v18
    = Cert.Model.mean128 (m ((c.tc : Thread nD τ).loc main_arg0)) (m ((c.tc : Thread nD τ).loc main_arg5)) (m ((c.tc : Thread nD τ).loc main_arg6)) :=
  ops0_mean (W0 m ρ c)

/-- After the first call its result array holds the first layer. -/
theorem W2_v19 (c : Dev nD) : W2 m ρ c (Proc.devRef .tc main_v19) = hidden m c := by
  have h := (W2_arr m ρ c 4).trans (Layer1.final (V1 m ρ) c)
  unfold Layer1.G at h
  rw [V1_arg0, V1_arg1, V1_arg2, V1_v18] at h
  exact h

/-- The buffers the first call does not touch are as the first stretch left them. -/
theorem W2_arg3 (c : Dev nD) : W2 m ρ c (Proc.devRef .tc main_arg3) = m ((c.tc : Thread nD τ).loc main_arg3) :=
  (W2_of_ne m ρ c main_arg3 (by decide)).trans (ops0_arg3 (W0 m ρ c))
theorem W2_arg4 (c : Dev nD) : W2 m ρ c (Proc.devRef .tc main_arg4) = m ((c.tc : Thread nD τ).loc main_arg4) :=
  (W2_of_ne m ρ c main_arg4 (by decide)).trans (ops0_arg4 (W0 m ρ c))
theorem W2_arg5 (c : Dev nD) : W2 m ρ c (Proc.devRef .tc main_arg5) = m ((c.tc : Thread nD τ).loc main_arg5) :=
  (W2_of_ne m ρ c main_arg5 (by decide)).trans (ops0_arg5 (W0 m ρ c))
theorem W2_arg6 (c : Dev nD) : W2 m ρ c (Proc.devRef .tc main_arg6) = m ((c.tc : Thread nD τ).loc main_arg6) :=
  (W2_of_ne m ρ c main_arg6 (by decide)).trans (ops0_arg6 (W0 m ρ c))
theorem W2_v6 (c : Dev nD) : W2 m ρ c (Proc.devRef .tc main_v6) = Cert.Model.degCol (m ((c.tc : Thread nD τ).loc main_arg6)) :=
  (W2_of_ne m ρ c main_v6 (by decide)).trans (ops0_deg (W0 m ρ c))

/-- What the second call finds. -/
theorem V3_v19 (c : Dev nD) : V3 m ρ c main_v19 = hidden m c := (ops1_v19 (W2 m ρ c)).trans (W2_v19 m ρ c)
theorem V3_arg3 (c : Dev nD) : V3 m ρ c main_arg3 = m ((c.tc : Thread nD τ).loc main_arg3) := (ops1_arg3 (W2 m ρ c)).trans (W2_arg3 m ρ c)
theorem V3_arg4 (c : Dev nD) : V3 m ρ c main_arg4 = m ((c.tc : Thread nD τ).loc main_arg4) := (ops1_arg4 (W2 m ρ c)).trans (W2_arg4 m ρ c)
theorem V3_v31 (c : Dev nD) : V3 m ρ c main_v31
    = Cert.Model.mean256 (hidden m c) (m ((c.tc : Thread nD τ).loc main_arg5)) (m ((c.tc : Thread nD τ).loc main_arg6)) := by
  have h := ops1_mean (W2 m ρ c)
  rw [W2_v19, W2_arg5, W2_arg6, W2_v6] at h
  exact h

/-- THE RESULT BUFFER after the run holds the network function of the arguments. -/
theorem result_eq (c : Dev nD) :
    W4 m ρ c (Proc.devRef .tc main_v32)
      = Cert.Model.model (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) := by
  have h := (W4_arr m ρ c 4).trans (Layer2.final (V3 m ρ) c)
  unfold Layer2.G at h
  rw [V3_v19, V3_v31, V3_arg3, V3_arg4] at h
  exact h

/-- The run of the kernel program with its result read: the network function of the arguments, the arguments unchanged. -/
theorem run : θ_run defs (onTc (τ := τ) (main (F := Ideal))) ⟨m, fun _ => 0, ρ⟩ (fun r => ∀ c : Dev nD,
      r.2.mem ((c.tc : Thread nD τ).loc main_v32)
        = Cert.Model.model (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
            (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨(h c).1.trans (result_eq m ρ c), (h c).2⟩)
    (Cert.KernelIdeal.RunNamed.run_named (F := Ideal) m ρ)

end Cert.KernelIdeal.Chain

end
-- ==== Proof.RefValue.lean ====
/-
  The reference's result is the network function of its inputs: its composed term is, operation for operation, the network in
  the host's spelling.
-/
import proofs.«121027_j44719199485974_1_alg».proof.Proof.Gen.ReferenceIdeal.Run
import proofs.«121027_j44719199485974_1_alg».proof.Proof.Model

set_option maxRecDepth 16384

noncomputable section

namespace Cert.ReferenceIdeal.RefValue

open Idealize.ShloMosaic Idealize.ShloMosaic.TcCoe Idealize.SL.Sem Cert.ReferenceIdeal Cert.ReferenceIdeal.Value Cert.Model

/-- The reference run's result term, read at the extended reals, is `model` of the seven argument arrays. -/
theorem res_eq (m : (ℓ : Loc nD τ sig) → Buf (Elt Ideal) ℓ) (c : Dev nD) :
    (res_main_v42 (F := Ideal) m c : S50000x128.Idx → EReal)
      = model (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) := by
  rw [model_eq_host]
  rfl

end Cert.ReferenceIdeal.RefValue

end
-- ==== Proof.lean ====
/-
  The certificate of a two-layer message-passing network: for each node, the mean of its in-neighbours' features (a gather
  along the edges' sources, a scatter-add along their destinations, a division by max (in-degree, 1)) is added to the node's own
  features, and the sum goes through a dense layer `relu (· W + b)`; twice, 128 → 256 → 128 features over 50000 nodes.

  The kernel program keeps the gather, the scatter-add and the division on the host, exactly as the reference spells them,
  and runs each dense layer as a pallas_call over ten blocks of 5000 rows, narrowing both matrix-product operands to bf16. Over
  the extended reals a narrowing changes nothing, the matrix unit's product into a zero accumulator and the host's dot_general
  are the same sum Σ_k a[p,k] · w[k,q], and ten row blocks of a row-wise function tile the whole array; so each call leaves the
  layer of what it found (`Layer1.final`, `Layer2.final`), the kernel program's result is `Cert.Model.model` of the seven
  inputs (`Chain.result_eq`), and so is the reference's (`RefValue.res_eq`). No law of arithmetic beyond reading both sides
  entry by entry is used, and the inputs' finiteness is never opened. The ideal pass rewrote nothing, so `preserves` asks
  nothing.
-/
import proofs.«121027_j44719199485974_1_alg».proof.Defs
import proofs.«121027_j44719199485974_1_alg».proof.Proof.Gen.Kernel
import proofs.«121027_j44719199485974_1_alg».proof.Proof.Gen.Kernel.Skeleton
import proofs.«121027_j44719199485974_1_alg».proof.Proof.Gen.Kernel.Launch
import proofs.«121027_j44719199485974_1_alg».proof.Proof.Gen.Kernel.Points
import proofs.«121027_j44719199485974_1_alg».proof.Proof.Gen.Kernel.Frame
import proofs.«121027_j44719199485974_1_alg».proof.Proof.Gen.KernelIdeal
import proofs.«121027_j44719199485974_1_alg».proof.Proof.Gen.KernelIdeal.Skeleton
import proofs.«121027_j44719199485974_1_alg».proof.Proof.Gen.KernelIdeal.Launch
import proofs.«121027_j44719199485974_1_alg».proof.Proof.Gen.KernelIdeal.Points
import proofs.«121027_j44719199485974_1_alg».proof.Proof.Gen.KernelIdeal.Frame
import proofs.«121027_j44719199485974_1_alg».proof.Proof.Gen.ReferenceIdeal
import proofs.«121027_j44719199485974_1_alg».proof.Proof.Gen.Pre_finite_inputs
import proofs.«121027_j44719199485974_1_alg».proof.Proof.Gen.ReferenceIdeal.Run
import proofs.«121027_j44719199485974_1_alg».proof.Proof.KernelValue
import proofs.«121027_j44719199485974_1_alg».proof.Proof.RefValue
import Idealize.ShloMosaic.Adequacy
import Idealize.ShloMosaic.Init

noncomputable section

namespace Cert.Proof

open Idealize.ShloMosaic Idealize.SL.Sem

/-- The word-level kernel program runs and keeps its arguments. -/
theorem frame_kernel : Cert.frame_Kernel := fun m ρ _ => Cert.Kernel.Gen.frame m ρ

/-- So does its reading over the extended reals. -/
theorem frame_kernelIdeal : Cert.frame_KernelIdeal := fun m ρ _ => Cert.KernelIdeal.Gen.frame m ρ

/-- The reference is host operations only: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- Both programs end with the network function of the (agreeing) arguments in their result buffers. -/
theorem algebraic : Cert.algebraic_KernelIdeal_ReferenceIdeal := by
  intro m ρ m' ρ' _ hagree
  refine ⟨_, Cert.KernelIdeal.Chain.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6⟩ := hagree c
  rw [Cert.ReferenceIdeal.RefValue.res_eq, h0, h1, h2, h3, h4, h5, h6]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
